-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32768x1024 : Shape := ⟨2, ![32768, 1024]⟩
abbrev S32768 : Shape := ⟨1, ![32768]⟩
abbrev S1024x32768 : Shape := ⟨2, ![1024, 32768]⟩
abbrev S1024 : Shape := ⟨1, ![1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S32768 : S_.BroadcastsInDim S32768 (![] : Fin 0 → Fin S32768.rank)
  reducesTo_S32768_S_d0 : S32768.ReducesTo [0] S_
  bcast_S_S1024x32768 : S_.BroadcastsInDim S1024x32768 (![] : Fin 0 → Fin S1024x32768.rank)
  reducesTo_S1024x32768_S_d0_1 : S1024x32768.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x32768 1) : IVec S_ 1 :=
  let main_c_5 : IVec S_ 1 := constantI S_ 1 1#1
  let main_v17 : IVec S_ 1 := (fun x v => Host.reduce IntOp.andi x v reducesTo_S1024x32768_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32x1024 .f32) (main_arg1 : FVec F S32768x1024 .f32) (main_arg2 : FVec F S32768 .f32) (main_arg3 : FVec F S1024x32768 .f32) (main_arg4 : FVec F S1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_v14 : FVec F S1024x32768 .f32 := Host.absf main_arg3
  let main_cst_4 : FVec F S_ .f32 := constant S_ .f32 0x7F800000#32
  let main_v15 : FVec F S1024x32768 .f32 := broadcastInDim S1024x32768 ![] bcast_S_S1024x32768 main_cst_4
  let main_v16 : IVec S1024x32768 1 := cmpf .olt main_v14 main_v15
  fn_part1 (F := F) main_arg4 main_v13 main_v16
-- ==== Kernel.lean ====
abbrev S32x1024 : Shape := ⟨2, ![32, 1024]⟩
abbrev S32768x1024 : Shape := ⟨2, ![32768, 1024]⟩
abbrev S32768 : Shape := ⟨1, ![32768]⟩
abbrev S1024x32768 : Shape := ⟨2, ![1024, 32768]⟩
abbrev S1024 : Shape := ⟨1, ![1024]⟩
abbrev S1x32768 : Shape := ⟨2, ![1, 32768]⟩
abbrev S1x1024 : Shape := ⟨2, ![1, 1024]⟩
abbrev S32x32768 : Shape := ⟨2, ![32, 32768]⟩
abbrev S2048x1024 : Shape := ⟨2, ![2048, 1024]⟩
abbrev S1x2048 : Shape := ⟨2, ![1, 2048]⟩
abbrev S1024x2048 : Shape := ⟨2, ![1024, 2048]⟩
abbrev S32x2048 : Shape := ⟨2, ![32, 2048]⟩

abbrev nBuf : Space → Nat
  | .hbm => 9
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S32768x1024, .f32⟩
  | .hbm, ⟨2, _⟩ => ⟨S32768, .f32⟩
  | .hbm, ⟨3, _⟩ => ⟨S1024x32768, .f32⟩
  | .hbm, ⟨4, _⟩ => ⟨S1024, .f32⟩
  | .hbm, ⟨5, _⟩ => ⟨S1x32768, .f32⟩
  | .hbm, ⟨6, _⟩ => ⟨S1x1024, .f32⟩
  | .hbm, ⟨7, _⟩ => ⟨S32x1024, .f32⟩
  | .hbm, ⟨8, _⟩ => ⟨S32x32768, .f32⟩
  | .local _ .vmem, ⟨0, _⟩ => ⟨S32x1024, .f32⟩
  | .local _ .vmem, ⟨1, _⟩ => ⟨S2048x1024, .f32⟩
  | .local _ .vmem, ⟨2, _⟩ => ⟨S2048x1024, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S1x1024, .f32⟩
  | .local _ .vmem, ⟨8, _⟩ => ⟨S32x1024, .f32⟩
  | .local _ .vmem, ⟨9, _⟩ => ⟨S32x2048, .f32⟩
  | .local _ .vmem, ⟨10, _⟩ => ⟨S32x2048, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_11 : BitVec 32 := 0#32
  let v14 : BitVec 1 := Scalar.cmpi .ne v13 c0_i32_11
  v14

def k0_cond2 (i : grid0.Coords) : BitVec 1 :=
  let arg0 : BitVec 32 := BitVec.ofNat 32 (i 0).val
  let c0_i32_12 : BitVec 32 := 0#32
  let v15 : BitVec 1 := Scalar.cmpi .sgt arg0 c0_i32_12
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32768_S1x32768 : S32768.ShapeCasts S1x32768
  shapeCasts_S1024_S1x1024 : S1024.ShapeCasts S1x1024
  inb_S32x1024_S32x1024_0_0 : ∀ a, (![0, 0] : Fin 2 → Nat) a + S32x1024.size a ≤ S32x1024.size a
  h_S32x1024 : 0 < S32x1024.numel
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  inb_S32x2048_S32x2048_0_0 : ∀ a, (![0, 0] : Fin 2 → Nat) a + S32x2048.size a ≤ S32x2048.size a
  h_S32x2048 : 0 < S32x2048.numel
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  shapeCasts_S32x1024_S32x1024 : S32x1024.ShapeCasts S32x1024
  dot_S32x1024_S2048x1024_S32x2048_1_1_0_0_n_n_wf : DotDims.WF S32x1024 S2048x1024 S32x2048 [1] [1] [0] [0] [] []
  dot_S32x2048_S1024x2048_S32x1024_1_1_0_0_n_n_wf : DotDims.WF S32x2048 S1024x2048 S32x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .f32 = 32 ∨ (Rect.block (s := S32768x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x32768.size a
  hwx0_2 : ∀ i : grid0.Coords, EltTy.bits .f32 = 32 ∨ (Rect.block (s := S1x32768) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x32768.size a
  hwx0_3 : ∀ i : grid0.Coords, EltTy.bits .f32 = 32 ∨ (Rect.block (s := S1024x32768) S1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .f32 = 32 ∨ (Rect.block (s := S32x1024) S32x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x2048.size a ≤ S32x32768.size a
  hwx0_6 : ∀ i : grid0.Coords, EltTy.bits .f32 = 32 ∨ (Rect.block (s := S32x32768) S32x2048.size (cc0_transform_6 i) (hinb0_6 i)).WholeWords (EltTy.packing .f32)

variable [Facts₀]

def dot_S32x1024_S2048x1024_S32x2048_1_1_0_0_n_n : DotDims S32x1024 S2048x1024 S32x2048 where
  lhsContracting := [1]
  rhsContracting := [1]
  lhsNonContracting := [0]
  rhsNonContracting := [0]
  lhsBatch := []
  rhsBatch := []
  wf := dot_S32x1024_S2048x1024_S32x2048_1_1_0_0_n_n_wf
def dot_S32x2048_S1024x2048_S32x1024_1_1_0_0_n_n : DotDims S32x2048 S1024x2048 S32x1024 where
  lhsContracting := [1]
  rhsContracting := [1]
  lhsNonContracting := [0]
  rhsNonContracting := [0]
  lhsBatch := []
  rhsBatch := []
  wf := dot_S32x2048_S1024x2048_S32x1024_1_1_0_0_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S32x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S32x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond1 i == 1#1) && !(k0_cond2 i == 1#1) | 6 => fun _ => false | ⟨_ + 7, h⟩ => absurd h (Nat.not_lt.2 (Nat.le_add_left _ _))

class Facts : Prop extends Facts₀ where

variable [Facts]
-- ==== ReferenceIdeal.lean ====
abbrev S32x1024 : Shape := ⟨2, ![32, 1024]⟩
abbrev S32768x1024 : Shape := ⟨2, ![32768, 1024]⟩
abbrev S32768 : Shape := ⟨1, ![32768]⟩
abbrev S1024x32768 : Shape := ⟨2, ![1024, 32768]⟩
abbrev S1024 : Shape := ⟨1, ![1024]⟩
abbrev S32x32768 : Shape := ⟨2, ![32, 32768]⟩
abbrev S1x32768 : Shape := ⟨2, ![1, 32768]⟩
abbrev S_ : Shape := ⟨0, ![]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32768x1024, .f32⟩
  | .hbm, ⟨2, _⟩ => ⟨S32768, .f32⟩
  | .hbm, ⟨3, _⟩ => ⟨S1024x32768, .f32⟩
  | .hbm, ⟨4, _⟩ => ⟨S1024, .f32⟩
  | .hbm, ⟨5, _⟩ => ⟨S1024x32768, .f32⟩
  | .hbm, ⟨6, _⟩ => ⟨S32x32768, .f32⟩
  | .hbm, ⟨7, _⟩ => ⟨S1x32768, .f32⟩
  | .hbm, ⟨8, _⟩ => ⟨S32x32768, .f32⟩
  | .hbm, ⟨9, _⟩ => ⟨S32x32768, .f32⟩
  | .hbm, ⟨10, _⟩ => ⟨S_, .f32⟩
  | .hbm, ⟨11, _⟩ => ⟨S32x32768, .f32⟩
  | .hbm, ⟨12, _⟩ => ⟨S32x32768, .f32⟩
  | .hbm, ⟨13, _⟩ => ⟨S32768x1024, .f32⟩
  | .hbm, ⟨14, _⟩ => ⟨S32x1024, .f32⟩
  | .hbm, ⟨15, _⟩ => ⟨S1x1024, .f32⟩
  | .hbm, ⟨16, _⟩ => ⟨S32x1024, .f32⟩
  | .hbm, ⟨17, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  transposes_S32768x1024_S1024x32768_1_0 : S32768x1024.Transposes [1, 0] S1024x32768
  bcast_S32768_S1x32768_1 : S32768.BroadcastsInDim S1x32768 (![1] : Fin 1 → Fin S1x32768.rank)
  bcast_S1x32768_S32x32768_0_1 : S1x32768.BroadcastsInDim S32x32768 (![0, 1] : Fin 2 → Fin S32x32768.rank)
  bcast_S_S32x32768 : S_.BroadcastsInDim S32x32768 (![] : Fin 0 → Fin S32x32768.rank)
  transposes_S1024x32768_S32768x1024_1_0 : S1024x32768.Transposes [1, 0] S32768x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  dot_S32x1024_S1024x32768_S32x32768_1_0_0_1_n_n_wf : DotDims.WF S32x1024 S1024x32768 S32x32768 [1] [0] [0] [1] [] []
  dot_S32x32768_S32768x1024_S32x1024_1_0_0_1_n_n_wf : DotDims.WF S32x32768 S32768x1024 S32x1024 [1] [0] [0] [1] [] []

variable [Facts₀]

def dot_S32x1024_S1024x32768_S32x32768_1_0_0_1_n_n : DotDims S32x1024 S1024x32768 S32x32768 where
  lhsContracting := [1]
  rhsContracting := [0]
  lhsNonContracting := [0]
  rhsNonContracting := [1]
  lhsBatch := []
  rhsBatch := []
  wf := dot_S32x1024_S1024x32768_S32x32768_1_0_0_1_n_n_wf
def dot_S32x32768_S32768x1024_S32x1024_1_0_0_1_n_n : DotDims S32x32768 S32768x1024 S32x1024 where
  lhsContracting := [1]
  rhsContracting := [0]
  lhsNonContracting := [0]
  rhsNonContracting := [1]
  lhsBatch := []
  rhsBatch := []
  wf := dot_S32x32768_S32768x1024_S32x1024_1_0_0_1_n_n_wf

class Facts : Prop extends Facts₀ where

variable [Facts]
-- ==== Proof.KernelBody.lean ====
/-
  One grid point of the fused sparse-autoencoder kernel, and the run of all sixteen.

  Grid point t works on dictionary tile t: it reads the whole x block, tile t's rows of W_enc, its entries of b_enc
  and its columns of W_dec; it stores the tile's activations into the z window (written back at every point) and
  carries the reconstruction in the x_hat window, whose block is the whole array and is written back only after the
  last point.  At the first point the x_hat buffer is set to the tile's contribution plus the bias row; at every
  later point the tile's contribution is added to what the point before left there.  So what the x_hat buffer holds
  after point t is defined by recursion on t (`accAt`), and what the z buffer holds after point t is a function of
  the point's blocks alone.  Every statement here holds for any reading of the floats.
-/
import proofs.«155239_g48773648613903_cont_8to1_c_1082_2_alg».proof.Proof.Gen.Kernel.Frame
import proofs.«155239_g48773648613903_cont_8to1_c_1082_2_alg».proof.Proof.Gen.Kernel.Skeleton
import Idealize.ShloMosaic.Lib.Pipeline.Value

set_option maxRecDepth 16384

noncomputable section

namespace Cert.Sae.KernelBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes -/

/-- The reset branch is taken at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The accumulating branch is taken at every later point. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores into the x_hat buffer at every point, so no window is ever idle. -/
theorem live : ∀ (w : Fin 7) (i : grid0.Coords), cfg0.idle w i = false := by decide +kernel

/-- The whole-buffer rectangle starts at the origin. -/
theorem off0 : (![0, 0] : Fin 2 → ℕ) = fun _ => 0 := funext fun a => by fin_cases a <;> rfl

/-! ## The body on any whole staging buffers -/

/-- A buffer read back after one store through its whole rectangle holds the stored value, whatever it held. -/
theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

set_option maxHeartbeats 1000000 in
/-- At a point that takes the reset branch: the x_hat buffer ends at the tile's contribution plus the bias row,
    the z buffer at the tile's activations, whatever either held; the inputs are left as found. -/
theorem run_first (c : Dev nD) (i : grid0.Coords) (arg1 : Memref sig .tc .vmem S32x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S32x1024 .f32) (harg6 : arg6.IsWhole) (arg7 : Memref sig .tc .vmem S32x2048 .f32) (harg7 : arg7.IsWhole)
    (h1 : k0_cond1 i = 1#1) (h2 : ¬k0_cond2 i = 1#1)
    (x0 : Vec F S32x1024 .f32) (x1 : Vec F S2048x1024 .f32) (x2 : Vec F S1x2048 .f32) (x3 : Vec F S1024x2048 .f32) (x4 : Vec F S1x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x0 x1 x2 x3 x4) ∗ owns (c : Thread nD τ) arg7 fullShare (k0_pay1 x0 x1 x2)) -∗ K ⟨⟩))
      ⊢ wp frame (wpE (defs₀ (F := F)) Variants.none c none) E (cc0__fused_body i arg1 harg1 arg2 harg2 arg3 harg3 arg4 harg4 arg5 harg5 arg6 harg6 arg7 harg7) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [read_store_whole _ _ off0]
    simp only [View.readAt_eq_ld, harg1.read_unread, harg2.read_unread, harg3.read_unread, harg4.read_unread, harg5.read_unread,
      View.ld_unit_zero (S := S32x1024) off0, View.ld_unit_zero (S := S2048x1024) off0, View.ld_unit_zero (S := S1x2048) off0,
      View.ld_unit_zero (S := S1024x2048) off0, View.ld_unit_zero (S := S1x1024) off0]
  iexists _; isplitr; swap; · iexact H6
  ipureintro
  rw [read_store_whole _ _ off0]
  simp only [View.readAt_eq_ld, harg1.read_unread, harg2.read_unread, harg3.read_unread, harg4.read_unread, harg5.read_unread,
    View.ld_unit_zero (S := S32x1024) off0, View.ld_unit_zero (S := S2048x1024) off0, View.ld_unit_zero (S := S1x2048) off0,
    View.ld_unit_zero (S := S1024x2048) off0, View.ld_unit_zero (S := S1x1024) off0]

set_option maxHeartbeats 1000000 in
/-- At a point that takes the accumulating branch: the x_hat buffer, found at `y5`, ends at `y5` plus the tile's
    contribution; the z buffer ends at the tile's activations, whatever it held; the inputs are left as found. -/
theorem run_later (c : Dev nD) (i : grid0.Coords) (arg1 : Memref sig .tc .vmem S32x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S32x1024 .f32) (harg6 : arg6.IsWhole) (arg7 : Memref sig .tc .vmem S32x2048 .f32) (harg7 : arg7.IsWhole)
    (h1 : ¬k0_cond1 i = 1#1) (h2 : k0_cond2 i = 1#1)
    (x0 : Vec F S32x1024 .f32) (x1 : Vec F S2048x1024 .f32) (x2 : Vec F S1x2048 .f32) (x3 : Vec F S1024x2048 .f32) (x4 : Vec F S1x1024 .f32)
    (y5 : Vec F S32x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x0 x1 x2 x3 y5) ∗ owns (c : Thread nD τ) arg7 fullShare (k0_pay1 x0 x1 x2)) -∗ K ⟨⟩))
      ⊢ wp frame (wpE (defs₀ (F := F)) Variants.none c none) E (cc0__fused_body i arg1 harg1 arg2 harg2 arg3 harg3 arg4 harg4 arg5 harg5 arg6 harg6 arg7 harg7) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hf5
  sl_exec (disch := first | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [read_store_whole _ _ off0]
    simp only [View.readAt_eq_ld, harg1.read_unread, harg2.read_unread, harg3.read_unread, harg4.read_unread, harg6.read_unread,
      View.ld_unit_zero (S := S32x1024) off0, View.ld_unit_zero (S := S2048x1024) off0, View.ld_unit_zero (S := S1x2048) off0,
      View.ld_unit_zero (S := S1024x2048) off0]
  iexists _; isplitr; swap; · iexact H6
  ipureintro
  rw [read_store_whole _ _ off0]
  simp only [View.readAt_eq_ld, harg1.read_unread, harg2.read_unread, harg3.read_unread, harg4.read_unread, harg5.read_unread,
    View.ld_unit_zero (S := S32x1024) off0, View.ld_unit_zero (S := S2048x1024) off0, View.ld_unit_zero (S := S1x2048) off0,
    View.ld_unit_zero (S := S1024x2048) off0, View.ld_unit_zero (S := S1x1024) off0]

/-! ## What the two output buffers hold after each point -/

variable (m : (ℓ : Loc nD τ sig) → Buf (Elt F) ℓ) (ρ : Dev nD → PrngReg)

/-- The point's blocks, at their literal shapes: all of x, tile t's rows of W_enc, its entries of b_enc as a row,
    its columns of W_dec, and the bias row of b_dec. -/
abbrev xB (c : Dev nD) (t : Fin cfg0.N) : Vec F S32x1024 .f32 := iblk m c 0 t
abbrev weB (c : Dev nD) (t : Fin cfg0.N) : Vec F S2048x1024 .f32 := iblk m c 1 t
abbrev beB (c : Dev nD) (t : Fin cfg0.N) : Vec F S1x2048 .f32 := iblk m c 2 t
abbrev wdB (c : Dev nD) (t : Fin cfg0.N) : Vec F S1024x2048 .f32 := iblk m c 3 t
abbrev bdB (c : Dev nD) (t : Fin cfg0.N) : Vec F S1x1024 .f32 := iblk m c 4 t

/-- THE ACCUMULATION: what the x_hat buffer holds after point `n` — at the first point the tile's contribution plus
    the bias row, at a later one what the point before left plus the tile's contribution. -/
def accAt (c : Dev nD) : (n : ℕ) → n < cfg0.N → Vec F S32x1024 .f32
  | 0, hn => k0_pay3 (xB m c ⟨0, hn⟩) (weB m c ⟨0, hn⟩) (beB m c ⟨0, hn⟩) (wdB m c ⟨0, hn⟩) (bdB m c ⟨0, hn⟩)
  | n + 1, hn => k0_pay4 (xB m c ⟨n + 1, hn⟩) (weB m c ⟨n + 1, hn⟩) (beB m c ⟨n + 1, hn⟩) (wdB m c ⟨n + 1, hn⟩) (accAt c n (Nat.lt_of_succ_lt hn))

theorem accAt_first (c : Dev nD) (t : Fin cfg0.N) (h : t.val = 0) :
    accAt m c t.val t.isLt = k0_pay3 (xB m c t) (weB m c t) (beB m c t) (wdB m c t) (bdB m c t) := by
  obtain ⟨n, hn⟩ := t
  cases n with
  | zero => rfl
  | succ n => exact absurd h (Nat.succ_ne_zero n)

theorem accAt_later (c : Dev nD) (t : Fin cfg0.N) (h : t.val ≠ 0) :
    accAt m c t.val t.isLt = k0_pay4 (xB m c t) (weB m c t) (beB m c t) (wdB m c t) (accAt m c (t.val - 1) (Nat.lt_of_le_of_lt (Nat.sub_le _ _) t.isLt)) := by
  obtain ⟨n, hn⟩ := t
  cases n with
  | zero => exact absurd rfl h
  | succ n => rfl

/-! ## The pipeline's proof data -/

/-- The arrays as the region finds them; after the body at point `t` each input's buffer at its block, the x_hat
    buffer at the accumulation and the z buffer at the tile's activations; nothing else carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
    | ⟨6, _⟩ => k0_pay1 (xB m c t) (weB m c t) (beB m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = accAt m c t.val t.isLt := by dsimp only [dats]
theorem after6 (c : Dev nD) (t : Fin cfg0.N) : (dats m 0 c).after 6 t = k0_pay1 (xB m c t) (weB m c t) (beB m c t) := by dsimp only [dats]

/-- Each input's buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the x_hat buffer holds what the point before left: it is written back only after the
    last point, and it is never idle. -/
theorem before5_later (c : Dev nD) (t : Fin cfg0.N) (h : t.val ≠ 0) (d) :
    (dats m 0 c).before 5 t d = accAt m c (t.val - 1) (Nat.lt_of_le_of_lt (Nat.sub_le _ _) t.isLt) := by
  have hN : t.val < 16 := lt_of_lt_of_eq t.isLt (show cfg0.N = 16 from N_0)
  rw [Dat.before_out_kept _ 5 rfl t h (Bool.eq_false_iff.mpr fun hf => by have := (flush0_5 _).mp hf; dsimp only at this; omega)
    (live 5) (fun _ _ => rfl)]
  dsimp only [dats]

/-! ## The body obligation, at a generic point -/

/-- Each window's current staging buffer at point `t`, and its wholeness. -/
abbrev ms0 (t : Fin cfg0.N) : Memref sig .tc .vmem S32x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x2048 .f32 := win0_6.stage (cfg0.slots t 6)
abbrev hs6 (t : Fin cfg0.N) : (ms6 t).IsWhole := hstage0_6 ((cfg0.slots t 6).cast nbuf0_6)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the inputs' buffers hold their blocks; at the first point the reset branch runs on
    whatever the output buffers hold, at a later point the accumulating branch runs on what the point before left in
    the x_hat buffer; the invariant and the core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live 0]]
  rw [show (dats m 0 c).leavesExact 1 t = owns (c : Thread nD τ) (ms1 t) fullShare ((dats m 0 c).after 1 t) from by
    unfold Dat.leavesExact; rw [live 1]]
  rw [show (dats m 0 c).leavesExact 2 t = owns (c : Thread nD τ) (ms2 t) fullShare ((dats m 0 c).after 2 t) from by
    unfold Dat.leavesExact; rw [live 2]]
  rw [show (dats m 0 c).leavesExact 3 t = owns (c : Thread nD τ) (ms3 t) fullShare ((dats m 0 c).after 3 t) from by
    unfold Dat.leavesExact; rw [live 3]]
  rw [show (dats m 0 c).leavesExact 4 t = owns (c : Thread nD τ) (ms4 t) fullShare ((dats m 0 c).after 4 t) from by
    unfold Dat.leavesExact; rw [live 4]]
  rw [show (dats m 0 c).leavesExact 5 t = owns (c : Thread nD τ) (ms5 t) fullShare ((dats m 0 c).after 5 t) from by
    unfold Dat.leavesExact; rw [live 5]]
  rw [show (dats m 0 c).leavesExact 6 t = owns (c : Thread nD τ) (ms6 t) fullShare ((dats m 0 c).after 6 t) from by
    unfold Dat.leavesExact; rw [live 6]]
  rw [after0, after1, after2, after3, after4, after5, after6]
  by_cases h0 : t.val = 0
  · rw [accAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) (ms0 t) (hs0 t) (ms1 t) (hs1 t) (ms2 t) (hs2 t) (ms3 t) (hs3 t) (ms4 t) (hs4 t) (ms5 t) (hs5 t) (ms6 t) (hs6 t)
      ((first_iff t).mpr h0) (fun h => (later_iff t).mp h h0) (xB m c t) (weB m c t) (beB m c t) (wdB m c t) (bdB m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_later m c t h0]
    simp only [before5_later m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) (ms0 t) (hs0 t) (ms1 t) (hs1 t) (ms2 t) (hs2 t) (ms3 t) (hs3 t) (ms4 t) (hs4 t) (ms5 t) (hs5 t) (ms6 t) (hs6 t)
      (fun h => h0 ((first_iff t).mp h)) ((later_iff t).mpr h0) (xB m c t) (weB m c t) (beB m c t) (wdB m c t) (bdB m c t)
      (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final
    state each windowed array holds what the write-backs of the proof data leave in it — an input its entry
    contents — and every other unscoped buffer what the region found there. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Sae.KernelBody

end
-- ==== Proof.KernelIdealBody.lean ====
/-
  One grid point of the fused sparse-autoencoder kernel, and the run of all sixteen.

  Grid point t works on dictionary tile t: it reads the whole x block, tile t's rows of W_enc, its entries of b_enc
  and its columns of W_dec; it stores the tile's activations into the z window (written back at every point) and
  carries the reconstruction in the x_hat window, whose block is the whole array and is written back only after the
  last point.  At the first point the x_hat buffer is set to the tile's contribution plus the bias row; at every
  later point the tile's contribution is added to what the point before left there.  So what the x_hat buffer holds
  after point t is defined by recursion on t (`accAt`), and what the z buffer holds after point t is a function of
  the point's blocks alone.  Every statement here holds for any reading of the floats.
-/
import proofs.«155239_g48773648613903_cont_8to1_c_1082_2_alg».proof.Proof.Gen.KernelIdeal.Frame
import proofs.«155239_g48773648613903_cont_8to1_c_1082_2_alg».proof.Proof.Gen.KernelIdeal.Skeleton
import Idealize.ShloMosaic.Lib.Pipeline.Value

set_option maxRecDepth 16384

noncomputable section

namespace Cert.Sae.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes -/

/-- The reset branch is taken at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The accumulating branch is taken at every later point. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores into the x_hat buffer at every point, so no window is ever idle. -/
theorem live : ∀ (w : Fin 7) (i : grid0.Coords), cfg0.idle w i = false := by decide +kernel

/-- The whole-buffer rectangle starts at the origin. -/
theorem off0 : (![0, 0] : Fin 2 → ℕ) = fun _ => 0 := funext fun a => by fin_cases a <;> rfl

/-! ## The body on any whole staging buffers -/

/-- A buffer read back after one store through its whole rectangle holds the stored value, whatever it held. -/
theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

set_option maxHeartbeats 1000000 in
/-- At a point that takes the reset branch: the x_hat buffer ends at the tile's contribution plus the bias row,
    the z buffer at the tile's activations, whatever either held; the inputs are left as found. -/
theorem run_first (c : Dev nD) (i : grid0.Coords) (arg1 : Memref sig .tc .vmem S32x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S32x1024 .f32) (harg6 : arg6.IsWhole) (arg7 : Memref sig .tc .vmem S32x2048 .f32) (harg7 : arg7.IsWhole)
    (h1 : k0_cond1 i = 1#1) (h2 : ¬k0_cond2 i = 1#1)
    (x0 : Vec F S32x1024 .f32) (x1 : Vec F S2048x1024 .f32) (x2 : Vec F S1x2048 .f32) (x3 : Vec F S1024x2048 .f32) (x4 : Vec F S1x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x0 x1 x2 x3 x4) ∗ owns (c : Thread nD τ) arg7 fullShare (k0_pay1 x0 x1 x2)) -∗ K ⟨⟩))
      ⊢ wp frame (wpE (defs₀ (F := F)) Variants.none c none) E (cc0__fused_body i arg1 harg1 arg2 harg2 arg3 harg3 arg4 harg4 arg5 harg5 arg6 harg6 arg7 harg7) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [read_store_whole _ _ off0]
    simp only [View.readAt_eq_ld, harg1.read_unread, harg2.read_unread, harg3.read_unread, harg4.read_unread, harg5.read_unread,
      View.ld_unit_zero (S := S32x1024) off0, View.ld_unit_zero (S := S2048x1024) off0, View.ld_unit_zero (S := S1x2048) off0,
      View.ld_unit_zero (S := S1024x2048) off0, View.ld_unit_zero (S := S1x1024) off0]
  iexists _; isplitr; swap; · iexact H6
  ipureintro
  rw [read_store_whole _ _ off0]
  simp only [View.readAt_eq_ld, harg1.read_unread, harg2.read_unread, harg3.read_unread, harg4.read_unread, harg5.read_unread,
    View.ld_unit_zero (S := S32x1024) off0, View.ld_unit_zero (S := S2048x1024) off0, View.ld_unit_zero (S := S1x2048) off0,
    View.ld_unit_zero (S := S1024x2048) off0, View.ld_unit_zero (S := S1x1024) off0]

set_option maxHeartbeats 1000000 in
/-- At a point that takes the accumulating branch: the x_hat buffer, found at `y5`, ends at `y5` plus the tile's
    contribution; the z buffer ends at the tile's activations, whatever it held; the inputs are left as found. -/
theorem run_later (c : Dev nD) (i : grid0.Coords) (arg1 : Memref sig .tc .vmem S32x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S32x1024 .f32) (harg6 : arg6.IsWhole) (arg7 : Memref sig .tc .vmem S32x2048 .f32) (harg7 : arg7.IsWhole)
    (h1 : ¬k0_cond1 i = 1#1) (h2 : k0_cond2 i = 1#1)
    (x0 : Vec F S32x1024 .f32) (x1 : Vec F S2048x1024 .f32) (x2 : Vec F S1x2048 .f32) (x3 : Vec F S1024x2048 .f32) (x4 : Vec F S1x1024 .f32)
    (y5 : Vec F S32x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x0 x1 x2 x3 y5) ∗ owns (c : Thread nD τ) arg7 fullShare (k0_pay1 x0 x1 x2)) -∗ K ⟨⟩))
      ⊢ wp frame (wpE (defs₀ (F := F)) Variants.none c none) E (cc0__fused_body i arg1 harg1 arg2 harg2 arg3 harg3 arg4 harg4 arg5 harg5 arg6 harg6 arg7 harg7) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hf5
  sl_exec (disch := first | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [read_store_whole _ _ off0]
    simp only [View.readAt_eq_ld, harg1.read_unread, harg2.read_unread, harg3.read_unread, harg4.read_unread, harg6.read_unread,
      View.ld_unit_zero (S := S32x1024) off0, View.ld_unit_zero (S := S2048x1024) off0, View.ld_unit_zero (S := S1x2048) off0,
      View.ld_unit_zero (S := S1024x2048) off0]
  iexists _; isplitr; swap; · iexact H6
  ipureintro
  rw [read_store_whole _ _ off0]
  simp only [View.readAt_eq_ld, harg1.read_unread, harg2.read_unread, harg3.read_unread, harg4.read_unread, harg5.read_unread,
    View.ld_unit_zero (S := S32x1024) off0, View.ld_unit_zero (S := S2048x1024) off0, View.ld_unit_zero (S := S1x2048) off0,
    View.ld_unit_zero (S := S1024x2048) off0, View.ld_unit_zero (S := S1x1024) off0]

/-! ## What the two output buffers hold after each point -/

variable (m : (ℓ : Loc nD τ sig) → Buf (Elt F) ℓ) (ρ : Dev nD → PrngReg)

/-- The point's blocks, at their literal shapes: all of x, tile t's rows of W_enc, its entries of b_enc as a row,
    its columns of W_dec, and the bias row of b_dec. -/
abbrev xB (c : Dev nD) (t : Fin cfg0.N) : Vec F S32x1024 .f32 := iblk m c 0 t
abbrev weB (c : Dev nD) (t : Fin cfg0.N) : Vec F S2048x1024 .f32 := iblk m c 1 t
abbrev beB (c : Dev nD) (t : Fin cfg0.N) : Vec F S1x2048 .f32 := iblk m c 2 t
abbrev wdB (c : Dev nD) (t : Fin cfg0.N) : Vec F S1024x2048 .f32 := iblk m c 3 t
abbrev bdB (c : Dev nD) (t : Fin cfg0.N) : Vec F S1x1024 .f32 := iblk m c 4 t

/-- THE ACCUMULATION: what the x_hat buffer holds after point `n` — at the first point the tile's contribution plus
    the bias row, at a later one what the point before left plus the tile's contribution. -/
def accAt (c : Dev nD) : (n : ℕ) → n < cfg0.N → Vec F S32x1024 .f32
  | 0, hn => k0_pay3 (xB m c ⟨0, hn⟩) (weB m c ⟨0, hn⟩) (beB m c ⟨0, hn⟩) (wdB m c ⟨0, hn⟩) (bdB m c ⟨0, hn⟩)
  | n + 1, hn => k0_pay4 (xB m c ⟨n + 1, hn⟩) (weB m c ⟨n + 1, hn⟩) (beB m c ⟨n + 1, hn⟩) (wdB m c ⟨n + 1, hn⟩) (accAt c n (Nat.lt_of_succ_lt hn))

theorem accAt_first (c : Dev nD) (t : Fin cfg0.N) (h : t.val = 0) :
    accAt m c t.val t.isLt = k0_pay3 (xB m c t) (weB m c t) (beB m c t) (wdB m c t) (bdB m c t) := by
  obtain ⟨n, hn⟩ := t
  cases n with
  | zero => rfl
  | succ n => exact absurd h (Nat.succ_ne_zero n)

theorem accAt_later (c : Dev nD) (t : Fin cfg0.N) (h : t.val ≠ 0) :
    accAt m c t.val t.isLt = k0_pay4 (xB m c t) (weB m c t) (beB m c t) (wdB m c t) (accAt m c (t.val - 1) (Nat.lt_of_le_of_lt (Nat.sub_le _ _) t.isLt)) := by
  obtain ⟨n, hn⟩ := t
  cases n with
  | zero => exact absurd rfl h
  | succ n => rfl

/-! ## The pipeline's proof data -/

/-- The arrays as the region finds them; after the body at point `t` each input's buffer at its block, the x_hat
    buffer at the accumulation and the z buffer at the tile's activations; nothing else carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
    | ⟨6, _⟩ => k0_pay1 (xB m c t) (weB m c t) (beB m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = accAt m c t.val t.isLt := by dsimp only [dats]
theorem after6 (c : Dev nD) (t : Fin cfg0.N) : (dats m 0 c).after 6 t = k0_pay1 (xB m c t) (weB m c t) (beB m c t) := by dsimp only [dats]

/-- Each input's buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the x_hat buffer holds what the point before left: it is written back only after the
    last point, and it is never idle. -/
theorem before5_later (c : Dev nD) (t : Fin cfg0.N) (h : t.val ≠ 0) (d) :
    (dats m 0 c).before 5 t d = accAt m c (t.val - 1) (Nat.lt_of_le_of_lt (Nat.sub_le _ _) t.isLt) := by
  have hN : t.val < 16 := lt_of_lt_of_eq t.isLt (show cfg0.N = 16 from N_0)
  rw [Dat.before_out_kept _ 5 rfl t h (Bool.eq_false_iff.mpr fun hf => by have := (flush0_5 _).mp hf; dsimp only at this; omega)
    (live 5) (fun _ _ => rfl)]
  dsimp only [dats]

/-! ## The body obligation, at a generic point -/

/-- Each window's current staging buffer at point `t`, and its wholeness. -/
abbrev ms0 (t : Fin cfg0.N) : Memref sig .tc .vmem S32x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x2048 .f32 := win0_6.stage (cfg0.slots t 6)
abbrev hs6 (t : Fin cfg0.N) : (ms6 t).IsWhole := hstage0_6 ((cfg0.slots t 6).cast nbuf0_6)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the inputs' buffers hold their blocks; at the first point the reset branch runs on
    whatever the output buffers hold, at a later point the accumulating branch runs on what the point before left in
    the x_hat buffer; the invariant and the core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live 0]]
  rw [show (dats m 0 c).leavesExact 1 t = owns (c : Thread nD τ) (ms1 t) fullShare ((dats m 0 c).after 1 t) from by
    unfold Dat.leavesExact; rw [live 1]]
  rw [show (dats m 0 c).leavesExact 2 t = owns (c : Thread nD τ) (ms2 t) fullShare ((dats m 0 c).after 2 t) from by
    unfold Dat.leavesExact; rw [live 2]]
  rw [show (dats m 0 c).leavesExact 3 t = owns (c : Thread nD τ) (ms3 t) fullShare ((dats m 0 c).after 3 t) from by
    unfold Dat.leavesExact; rw [live 3]]
  rw [show (dats m 0 c).leavesExact 4 t = owns (c : Thread nD τ) (ms4 t) fullShare ((dats m 0 c).after 4 t) from by
    unfold Dat.leavesExact; rw [live 4]]
  rw [show (dats m 0 c).leavesExact 5 t = owns (c : Thread nD τ) (ms5 t) fullShare ((dats m 0 c).after 5 t) from by
    unfold Dat.leavesExact; rw [live 5]]
  rw [show (dats m 0 c).leavesExact 6 t = owns (c : Thread nD τ) (ms6 t) fullShare ((dats m 0 c).after 6 t) from by
    unfold Dat.leavesExact; rw [live 6]]
  rw [after0, after1, after2, after3, after4, after5, after6]
  by_cases h0 : t.val = 0
  · rw [accAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) (ms0 t) (hs0 t) (ms1 t) (hs1 t) (ms2 t) (hs2 t) (ms3 t) (hs3 t) (ms4 t) (hs4 t) (ms5 t) (hs5 t) (ms6 t) (hs6 t)
      ((first_iff t).mpr h0) (fun h => (later_iff t).mp h h0) (xB m c t) (weB m c t) (beB m c t) (wdB m c t) (bdB m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_later m c t h0]
    simp only [before5_later m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) (ms0 t) (hs0 t) (ms1 t) (hs1 t) (ms2 t) (hs2 t) (ms3 t) (hs3 t) (ms4 t) (hs4 t) (ms5 t) (hs5 t) (ms6 t) (hs6 t)
      (fun h => h0 ((first_iff t).mp h)) ((later_iff t).mpr h0) (xB m c t) (weB m c t) (beB m c t) (wdB m c t) (bdB m c t)
      (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final
    state each windowed array holds what the write-backs of the proof data leave in it — an input its entry
    contents — and every other unscoped buffer what the region found there. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Sae.KernelIdealBody

end
-- ==== Proof.Spec.lean ====
/-
  The sparse-autoencoder forward pass as index-by-index functions of the argument arrays, over the extended reals.

  With tokens t < 32, input features n, k < 1024 and dictionary entries d < 32768:
    code  [t, d] = max (Σ_k x[t, k] · W_enc[d, k] + b_enc[d]) 0
    recon [t, n] = Σ_d code[t, d] · W_dec[n, d] + b_dec[n]
  The dictionary axis is cut into 16 tiles of 2048 entries, d = 2048 · j + e.  One tile's contribution to the
  reconstruction is `part j`; adding the tiles one after the other onto `part 0 + b_dec` (`accTiles`) ends, after the
  last tile, at `recon`: a finite sum over the dictionary axis regrouped by tiles, with the bias moved from the front
  of the sum to its end. Both steps are commutativity and associativity of addition, which hold on the extended reals
  without any finiteness assumption.

  The same two formulas on ONE tile's blocks (`codeBlk`, `partBlk`) are what one grid point of the kernel computes.
-/
import Mathlib.Data.EReal.Basic
import Mathlib.Algebra.BigOperators.Fin
import Idealize.ShloMosaic.PureOps.Ideal
import Idealize.ShloMosaic.Lib.ValueIdx

noncomputable section

namespace Cert.Sae

open Idealize.ShloMosaic Idealize.ShloMosaic.ValueIdx

/-- Entry `e` of dictionary tile `j`. -/
abbrev tileIdx (j : Fin 16) (e : Fin 2048) : Fin 32768 := ⟨2048 * j.val + e.val, by omega⟩

/-! ## The whole arrays -/

/-- The encoder's activations: `max (x · W_encᵀ + b_enc) 0`. -/
def code (x : (⟨2, ![32, 1024]⟩ : Shape).Idx → EReal) (We : (⟨2, ![32768, 1024]⟩ : Shape).Idx → EReal)
    (be : (⟨1, ![32768]⟩ : Shape).Idx → EReal) : (⟨2, ![32, 32768]⟩ : Shape).Idx → EReal :=
  fun i => max ((∑ k : Fin 1024, x (ix2 (i 0) k) * We (ix2 (i 1) k)) + be (ix1 (i 1))) 0

/-- The decoder's reconstruction: `code · W_decᵀ + b_dec`. -/
def recon (x : (⟨2, ![32, 1024]⟩ : Shape).Idx → EReal) (We : (⟨2, ![32768, 1024]⟩ : Shape).Idx → EReal)
    (be : (⟨1, ![32768]⟩ : Shape).Idx → EReal) (Wd : (⟨2, ![1024, 32768]⟩ : Shape).Idx → EReal)
    (bd : (⟨1, ![1024]⟩ : Shape).Idx → EReal) : (⟨2, ![32, 1024]⟩ : Shape).Idx → EReal :=
  fun i => (∑ d : Fin 32768, code x We be (ix2 (i 0) d) * Wd (ix2 (i 1) d)) + bd (ix1 (i 1))

/-- Dictionary tile `j`'s contribution to the reconstruction. -/
def part (x : (⟨2, ![32, 1024]⟩ : Shape).Idx → EReal) (We : (⟨2, ![32768, 1024]⟩ : Shape).Idx → EReal)
    (be : (⟨1, ![32768]⟩ : Shape).Idx → EReal) (Wd : (⟨2, ![1024, 32768]⟩ : Shape).Idx → EReal) (j : Fin 16) :
    (⟨2, ![32, 1024]⟩ : Shape).Idx → EReal :=
  fun i => ∑ e : Fin 2048, code x We be (ix2 (i 0) (tileIdx j e)) * Wd (ix2 (i 1) (tileIdx j e))

/-- The reconstruction accumulated tile by tile: tile 0's contribution plus the bias, then each later tile's added. -/
def accTiles (x : (⟨2, ![32, 1024]⟩ : Shape).Idx → EReal) (We : (⟨2, ![32768, 1024]⟩ : Shape).Idx → EReal)
    (be : (⟨1, ![32768]⟩ : Shape).Idx → EReal) (Wd : (⟨2, ![1024, 32768]⟩ : Shape).Idx → EReal)
    (bd : (⟨1, ![1024]⟩ : Shape).Idx → EReal) : (n : ℕ) → n < 16 → (⟨2, ![32, 1024]⟩ : Shape).Idx → EReal
  | 0, _ => fun i => part x We be Wd 0 i + bd (ix1 (i 1))
  | n + 1, hn => fun i => accTiles x We be Wd bd n (Nat.lt_of_succ_lt hn) i + part x We be Wd ⟨n + 1, hn⟩ i

/-! ## One tile's blocks -/

/-- The activations of one tile from the tile's rows of `W_enc` and its entries of `b_enc` (kept as a 1 × 2048 row). -/
def codeBlk (xb : (⟨2, ![32, 1024]⟩ : Shape).Idx → EReal) (web : (⟨2, ![2048, 1024]⟩ : Shape).Idx → EReal)
    (beb : (⟨2, ![1, 2048]⟩ : Shape).Idx → EReal) : (⟨2, ![32, 2048]⟩ : Shape).Idx → EReal :=
  fun i => max ((∑ k : Fin 1024, xb (ix2 (i 0) k) * web (ix2 (i 1) k)) + beb (ix2 0 (i 1))) 0

/-- A tile's activations times the tile's columns of `W_dec`. -/
def partBlk (zb : (⟨2, ![32, 2048]⟩ : Shape).Idx → EReal) (wdb : (⟨2, ![1024, 2048]⟩ : Shape).Idx → EReal) :
    (⟨2, ![32, 1024]⟩ : Shape).Idx → EReal :=
  fun i => ∑ e : Fin 2048, zb (ix2 (i 0) e) * wdb (ix2 (i 1) e)

end Cert.Sae

end
-- ==== Proof.Blocks.lean ====
/-
  The blocks a grid point reads, as entries of the argument arrays, and the tile formulas on them.

  Point t reads all of x; rows 2048·t … 2048·t + 2047 of W_enc; the same entries of b_enc (which reaches the kernel
  reshaped to one row of 32768); the same columns of W_dec; and b_dec reshaped to one row.  So the tile formulas on
  the point's blocks are the whole-array formulas at dictionary entry 2048·t + e.
-/
import proofs.«155239_g48773648613903_cont_8to1_c_1082_2_alg».proof.Proof.KernelIdealBody
import proofs.«155239_g48773648613903_cont_8to1_c_1082_2_alg».proof.Proof.Spec
import Idealize.ShloMosaic.Lib.StableHlo.Run
import Idealize.ShloMosaic.Lib.ValueIdx
import Idealize.ShloMosaic.Lib.Pipeline.Value

set_option maxRecDepth 16384

noncomputable section

namespace Cert.Sae.Blocks

open Cert.KernelIdeal Cert.KernelIdeal.Gen Cert.Sae.KernelIdealBody
open Idealize.ShloMosaic Idealize.ShloMosaic.TcCoe Idealize.ShloMosaic.ValueIdx Idealize.SL.Sem

variable (m : (ℓ : Loc nD τ sig) → Buf (Elt Ideal) ℓ)

/-- The five argument arrays as launched. -/
abbrev xA (c : Dev nD) : Vec Ideal S32x1024 .f32 := m ((c : Thread nD τ).loc main_arg0)
abbrev weA (c : Dev nD) : Vec Ideal S32768x1024 .f32 := m ((c : Thread nD τ).loc main_arg1)
abbrev beA (c : Dev nD) : Vec Ideal S32768 .f32 := m ((c : Thread nD τ).loc main_arg2)
abbrev wdA (c : Dev nD) : Vec Ideal S1024x32768 .f32 := m ((c : Thread nD τ).loc main_arg3)
abbrev bdA (c : Dev nD) : Vec Ideal S1024 .f32 := m ((c : Thread nD τ).loc main_arg4)

/-- The dictionary tile grid point `t` works on. -/
abbrev tileOf (t : Fin cfg0.N) : Fin 16 := ⟨t.val, lt_of_lt_of_eq t.isLt N_0⟩

/-! ## Where each window's block sits

Window 0 (x) and window 4 (the bias row of b_dec) sit at block (0, 0) at every point; window 1 (W_enc) at block
(t, 0) of 2048 × 1024; window 2 (the row of b_enc) at block (0, t) of 1 × 2048; window 3 (W_dec) at block (0, t) of
1024 × 2048. A block's coordinate in its array is the block index times the block's extent plus the coordinate
inside the block. -/

/-- The index maps of the five input windows, decided over the sixteen points. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0 :=
  (by decide +kernel : ∀ t : Fin grid0.N, _)

/-- The x block is the whole array at every point. -/
theorem xB_eq (c : Dev nD) (t : Fin cfg0.N) : xB m c t = xA m c := by
  obtain ⟨e0, e1, -⟩ := idx_facts t
  funext y
  show V m c main_arg0 (((cfg0.win 0).blk t).view.emb y) = xA m c y
  rw [V_main_arg0]
  refine congrArg (xA m c) (funext fun a => Fin.ext ?_)
  match a with
  | ⟨0, _⟩ => show win0_0.index t (0 : Fin 2) * 32 + 1 * (y 0).val = (y 0).val; omega
  | ⟨1, _⟩ => show win0_0.index t (1 : Fin 2) * 1024 + 1 * (y 1).val = (y 1).val; omega

/-- The W_enc block is the tile's rows. -/
theorem weB_apply (c : Dev nD) (t : Fin cfg0.N) (e : Fin 2048) (k : Fin 1024) :
    weB m c t (ix2 e k) = weA m c (ix2 (tileIdx (tileOf t) e) k) := by
  obtain ⟨-, -, e0, e1, -⟩ := idx_facts t
  show V m c main_arg1 (((cfg0.win 1).blk t).view.emb (ix2 e k)) = weA m c (ix2 (tileIdx (tileOf t) e) k)
  rw [V_main_arg1]
  refine congrArg (weA m c) (funext fun a => Fin.ext ?_)
  match a with
  | ⟨0, _⟩ => show win0_1.index t (0 : Fin 2) * 2048 + 1 * e.val = 2048 * t.val + e.val; omega
  | ⟨1, _⟩ => show win0_1.index t (1 : Fin 2) * 1024 + 1 * k.val = k.val; omega

/-- The b_enc block is the tile's entries, as a row. -/
theorem beB_apply (c : Dev nD) (t : Fin cfg0.N) (e : Fin 2048) :
    beB m c t (ix2 0 e) = beA m c (ix1 (tileIdx (tileOf t) e)) := by
  obtain ⟨-, -, -, -, e0, e1, -⟩ := idx_facts t
  have hV : (V m c main_call0_v0 : S1x32768.Idx → EReal) = shapeCast S1x32768 (beA m c) shapeCasts_S32768_S1x32768 := by
    dsimp only [Gen.V, Gen.hostOps0]; after_results; rfl
  show V m c main_call0_v0 (((cfg0.win 2).blk t).view.emb (ix2 0 e)) = beA m c (ix1 (tileIdx (tileOf t) e))
  rw [hV]
  refine shapeCast_apply (beA m c) shapeCasts_S32768_S1x32768 _ _ ?_
  rw [Shape.rowMajor_val_one, Shape.rowMajor_val_two]
  show 2048 * t.val + e.val = (win0_2.index t (0 : Fin 2) * 1 + 1 * 0) * 32768 + (win0_2.index t (1 : Fin 2) * 2048 + 1 * e.val)
  omega

/-- The W_dec block is the tile's columns. -/
theorem wdB_apply (c : Dev nD) (t : Fin cfg0.N) (n : Fin 1024) (e : Fin 2048) :
    wdB m c t (ix2 n e) = wdA m c (ix2 n (tileIdx (tileOf t) e)) := by
  obtain ⟨-, -, -, -, -, -, e0, e1, -⟩ := idx_facts t
  show V m c main_arg3 (((cfg0.win 3).blk t).view.emb (ix2 n e)) = wdA m c (ix2 n (tileIdx (tileOf t) e))
  rw [V_main_arg3]
  refine congrArg (wdA m c) (funext fun a => Fin.ext ?_)
  match a with
  | ⟨0, _⟩ => show win0_3.index t (0 : Fin 2) * 1024 + 1 * n.val = n.val; omega
  | ⟨1, _⟩ => show win0_3.index t (1 : Fin 2) * 2048 + 1 * e.val = 2048 * t.val + e.val; omega

/-- The b_dec block is the whole bias, as a row. -/
theorem bdB_apply (c : Dev nD) (t : Fin cfg0.N) (n : Fin 1024) :
    bdB m c t (ix2 0 n) = bdA m c (ix1 n) := by
  obtain ⟨-, -, -, -, -, -, -, -, e0, e1⟩ := idx_facts t
  have hV : (V m c main_call0_v1 : S1x1024.Idx → EReal) = shapeCast S1x1024 (bdA m c) shapeCasts_S1024_S1x1024 := by
    dsimp only [Gen.V, Gen.hostOps0]; after_results; rfl
  show V m c main_call0_v1 (((cfg0.win 4).blk t).view.emb (ix2 0 n)) = bdA m c (ix1 n)
  rw [hV]
  refine shapeCast_apply (bdA m c) shapeCasts_S1024_S1x1024 _ _ ?_
  rw [Shape.rowMajor_val_one, Shape.rowMajor_val_two]
  show n.val = (win0_4.index t (0 : Fin 2) * 1 + 1 * 0) * 1024 + (win0_4.index t (1 : Fin 2) * 1024 + 1 * n.val)
  omega

/-- The tile's activations are the whole activations at the tile's entries. -/
theorem codeBlk_apply (c : Dev nD) (t : Fin cfg0.N) (p : Fin 32) (e : Fin 2048) :
    Cert.Sae.codeBlk (xB m c t) (weB m c t) (beB m c t) (ix2 p e)
      = Cert.Sae.code (xA m c) (weA m c) (beA m c) (ix2 p (tileIdx (tileOf t) e)) := by
  unfold Cert.Sae.codeBlk Cert.Sae.code
  show max ((∑ k : Fin 1024, xB m c t (ix2 p k) * weB m c t (ix2 e k)) + beB m c t (ix2 0 e)) 0
    = max ((∑ k : Fin 1024, xA m c (ix2 p k) * weA m c (ix2 (tileIdx (tileOf t) e) k)) + beA m c (ix1 (tileIdx (tileOf t) e))) 0
  rw [xB_eq, beB_apply]
  refine congrArg (fun s => max (s + beA m c (ix1 (tileIdx (tileOf t) e))) 0) (Finset.sum_congr rfl fun k _ => ?_)
  rw [weB_apply]

/-- The tile's contribution on the point's blocks is the tile's contribution on the arrays. -/
theorem partBlk_eq (c : Dev nD) (t : Fin cfg0.N) :
    Cert.Sae.partBlk (Cert.Sae.codeBlk (xB m c t) (weB m c t) (beB m c t)) (wdB m c t)
      = Cert.Sae.part (xA m c) (weA m c) (beA m c) (wdA m c) (tileOf t) := by
  funext i
  obtain ⟨p, n, rfl⟩ : ∃ (p : Fin 32) (n : Fin 1024), i = ix2 p n := ⟨i 0, i 1, eq_ix2 i⟩
  unfold Cert.Sae.partBlk Cert.Sae.part
  show (∑ e : Fin 2048, Cert.Sae.codeBlk (xB m c t) (weB m c t) (beB m c t) (ix2 p e) * wdB m c t (ix2 n e))
    = ∑ e : Fin 2048, Cert.Sae.code (xA m c) (weA m c) (beA m c) (ix2 p (tileIdx (tileOf t) e)) * wdA m c (ix2 n (tileIdx (tileOf t) e))
  refine Finset.sum_congr rfl fun e _ => ?_
  rw [codeBlk_apply, wdB_apply]

end Cert.Sae.Blocks

end
-- ==== Proof.Pay.lean ====
/-
  What one grid point of the kernel computes, read index by index at the extended reals: the body's four stored
  values are the tile formulas of the specification on the point's blocks.
-/
import proofs.«155239_g48773648613903_cont_8to1_c_1082_2_alg».proof.Proof.Gen.KernelIdeal.Skeleton
import proofs.«155239_g48773648613903_cont_8to1_c_1082_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Sae.Pay

open Idealize.ShloMosaic Idealize.ShloMosaic.ValueIdx Cert.KernelIdeal Cert.KernelIdeal.Gen

/-! ## The encoder's product: a 32 × 1024 block times the transpose of a 2048 × 1024 block

Both operands are contracted over their axis 1, so the left operand is read at (row of the result, k) and the right
operand at (column of the result, k). -/

theorem lhs_enc_0 (i : S32x2048.Idx) (q : dot_S32x1024_S2048x1024_S32x2048_1_1_0_0_n_n.contr.Idx) :
    (dot_S32x1024_S2048x1024_S32x2048_1_1_0_0_n_n.lhsIdx i q 0).val = (i 0).val := by
  unfold DotDims.lhsIdx
  rw [dif_neg (show ¬(0 : Fin S32x1024.rank) ∈ dot_S32x1024_S2048x1024_S32x2048_1_1_0_0_n_n.lhsBatch by decide), dif_pos (show (0 : Fin S32x1024.rank) ∈ dot_S32x1024_S2048x1024_S32x2048_1_1_0_0_n_n.lhsNonContracting by decide)]
  rfl
theorem lhs_enc_1 (i : S32x2048.Idx) (q : dot_S32x1024_S2048x1024_S32x2048_1_1_0_0_n_n.contr.Idx) :
    (dot_S32x1024_S2048x1024_S32x2048_1_1_0_0_n_n.lhsIdx i q 1).val = (q ⟨0, by decide⟩).val :=
  dot_S32x1024_S2048x1024_S32x2048_1_1_0_0_n_n.lhsIdx_val_of_single rfl i q
theorem rhs_enc_0 (i : S32x2048.Idx) (q : dot_S32x1024_S2048x1024_S32x2048_1_1_0_0_n_n.contr.Idx) :
    (dot_S32x1024_S2048x1024_S32x2048_1_1_0_0_n_n.rhsIdx i q 0).val = (i 1).val := by
  unfold DotDims.rhsIdx
  rw [dif_neg (show ¬(0 : Fin S2048x1024.rank) ∈ dot_S32x1024_S2048x1024_S32x2048_1_1_0_0_n_n.rhsBatch by decide), dif_pos (show (0 : Fin S2048x1024.rank) ∈ dot_S32x1024_S2048x1024_S32x2048_1_1_0_0_n_n.rhsNonContracting by decide)]
  rfl
theorem rhs_enc_1 (i : S32x2048.Idx) (q : dot_S32x1024_S2048x1024_S32x2048_1_1_0_0_n_n.contr.Idx) :
    (dot_S32x1024_S2048x1024_S32x2048_1_1_0_0_n_n.rhsIdx i q 1).val = (q ⟨0, by decide⟩).val :=
  dot_S32x1024_S2048x1024_S32x2048_1_1_0_0_n_n.rhsIdx_val_of_single rfl i q

/-- Into a zero accumulator the encoder's product at (p, q) is the plain sum over the 1024 input features. -/
theorem matmul_enc_apply (xb : Vec Ideal S32x1024 .f32) (web : Vec Ideal S2048x1024 .f32) (p : Fin 32) (q : Fin 2048) :
    matmul (φ₁ := .f32) (φ₂ := .f32) dot_S32x1024_S2048x1024_S32x2048_1_1_0_0_n_n none xb web (constant (F := Ideal) S32x2048 .f32 0x00000000#32) (ix2 p q)
      = ∑ k : Fin 1024, xb (ix2 p k) * web (ix2 q k) := by
  simp only [matmul]
  rw [Ideal.matmul_constant_zero_apply, ← Equiv.sum_comp (contrEquiv1 dot_S32x1024_S2048x1024_S32x2048_1_1_0_0_n_n 1024 rfl rfl).symm]
  refine Finset.sum_congr rfl fun k _ => ?_
  have hk := contrEquiv1_symm_val dot_S32x1024_S2048x1024_S32x2048_1_1_0_0_n_n 1024 rfl rfl k
  have el : dot_S32x1024_S2048x1024_S32x2048_1_1_0_0_n_n.lhsIdx (ix2 p q) ((contrEquiv1 dot_S32x1024_S2048x1024_S32x2048_1_1_0_0_n_n 1024 rfl rfl).symm k) = ix2 p k := funext fun a => Fin.ext (by
    match a with
    | ⟨0, _⟩ => exact lhs_enc_0 _ _
    | ⟨1, _⟩ => exact (lhs_enc_1 _ _).trans hk)
  have er : dot_S32x1024_S2048x1024_S32x2048_1_1_0_0_n_n.rhsIdx (ix2 p q) ((contrEquiv1 dot_S32x1024_S2048x1024_S32x2048_1_1_0_0_n_n 1024 rfl rfl).symm k) = ix2 q k := funext fun a => Fin.ext (by
    match a with
    | ⟨0, _⟩ => exact rhs_enc_0 _ _
    | ⟨1, _⟩ => exact (rhs_enc_1 _ _).trans hk)
  rw [el, er]

/-! ## The decoder's product: a 32 × 2048 block times the transpose of a 1024 × 2048 block -/

theorem lhs_dec_0 (i : S32x1024.Idx) (q : dot_S32x2048_S1024x2048_S32x1024_1_1_0_0_n_n.contr.Idx) :
    (dot_S32x2048_S1024x2048_S32x1024_1_1_0_0_n_n.lhsIdx i q 0).val = (i 0).val := by
  unfold DotDims.lhsIdx
  rw [dif_neg (show ¬(0 : Fin S32x2048.rank) ∈ dot_S32x2048_S1024x2048_S32x1024_1_1_0_0_n_n.lhsBatch by decide), dif_pos (show (0 : Fin S32x2048.rank) ∈ dot_S32x2048_S1024x2048_S32x1024_1_1_0_0_n_n.lhsNonContracting by decide)]
  rfl
theorem lhs_dec_1 (i : S32x1024.Idx) (q : dot_S32x2048_S1024x2048_S32x1024_1_1_0_0_n_n.contr.Idx) :
    (dot_S32x2048_S1024x2048_S32x1024_1_1_0_0_n_n.lhsIdx i q 1).val = (q ⟨0, by decide⟩).val :=
  dot_S32x2048_S1024x2048_S32x1024_1_1_0_0_n_n.lhsIdx_val_of_single rfl i q
theorem rhs_dec_0 (i : S32x1024.Idx) (q : dot_S32x2048_S1024x2048_S32x1024_1_1_0_0_n_n.contr.Idx) :
    (dot_S32x2048_S1024x2048_S32x1024_1_1_0_0_n_n.rhsIdx i q 0).val = (i 1).val := by
  unfold DotDims.rhsIdx
  rw [dif_neg (show ¬(0 : Fin S1024x2048.rank) ∈ dot_S32x2048_S1024x2048_S32x1024_1_1_0_0_n_n.rhsBatch by decide), dif_pos (show (0 : Fin S1024x2048.rank) ∈ dot_S32x2048_S1024x2048_S32x1024_1_1_0_0_n_n.rhsNonContracting by decide)]
  rfl
theorem rhs_dec_1 (i : S32x1024.Idx) (q : dot_S32x2048_S1024x2048_S32x1024_1_1_0_0_n_n.contr.Idx) :
    (dot_S32x2048_S1024x2048_S32x1024_1_1_0_0_n_n.rhsIdx i q 1).val = (q ⟨0, by decide⟩).val :=
  dot_S32x2048_S1024x2048_S32x1024_1_1_0_0_n_n.rhsIdx_val_of_single rfl i q

/-- Into a zero accumulator the decoder's product at (p, n) is the plain sum over the tile's 2048 entries. -/
theorem matmul_dec_apply (zb : Vec Ideal S32x2048 .f32) (wdb : Vec Ideal S1024x2048 .f32) (p : Fin 32) (n : Fin 1024) :
    matmul (φ₁ := .f32) (φ₂ := .f32) dot_S32x2048_S1024x2048_S32x1024_1_1_0_0_n_n none zb wdb (constant (F := Ideal) S32x1024 .f32 0x00000000#32) (ix2 p n)
      = ∑ e : Fin 2048, zb (ix2 p e) * wdb (ix2 n e) := by
  simp only [matmul]
  rw [Ideal.matmul_constant_zero_apply, ← Equiv.sum_comp (contrEquiv1 dot_S32x2048_S1024x2048_S32x1024_1_1_0_0_n_n 2048 rfl rfl).symm]
  refine Finset.sum_congr rfl fun e _ => ?_
  have he := contrEquiv1_symm_val dot_S32x2048_S1024x2048_S32x1024_1_1_0_0_n_n 2048 rfl rfl e
  have el : dot_S32x2048_S1024x2048_S32x1024_1_1_0_0_n_n.lhsIdx (ix2 p n) ((contrEquiv1 dot_S32x2048_S1024x2048_S32x1024_1_1_0_0_n_n 2048 rfl rfl).symm e) = ix2 p e := funext fun a => Fin.ext (by
    match a with
    | ⟨0, _⟩ => exact lhs_dec_0 _ _
    | ⟨1, _⟩ => exact (lhs_dec_1 _ _).trans he)
  have er : dot_S32x2048_S1024x2048_S32x1024_1_1_0_0_n_n.rhsIdx (ix2 p n) ((contrEquiv1 dot_S32x2048_S1024x2048_S32x1024_1_1_0_0_n_n 2048 rfl rfl).symm e) = ix2 n e := funext fun a => Fin.ext (by
    match a with
    | ⟨0, _⟩ => exact rhs_dec_0 _ _
    | ⟨1, _⟩ => exact (rhs_dec_1 _ _).trans he)
  rw [el, er]

/-! ## The four stored values -/

/-- The activations' block: `max (x · W_enc_tileᵀ + b_enc_tile) 0`. -/
theorem pay1_eq (xb : Vec Ideal S32x1024 .f32) (web : Vec Ideal S2048x1024 .f32) (beb : Vec Ideal S1x2048 .f32) :
    k0_pay1 (F := Ideal) xb web beb = Cert.Sae.codeBlk xb web beb := by
  funext j
  obtain ⟨p, q, rfl⟩ : ∃ (p : Fin 32) (q : Fin 2048), j = ix2 p q := ⟨j 0, j 1, eq_ix2 j⟩
  unfold k0_pay1 Cert.Sae.codeBlk
  rw [maximumf_apply, addf_apply, broadcast_apply, matmul_enc_apply, shapeCast_self,
    broadcastTo_1b_ab_apply]
  show max (_ + beb (ix2 0 q)) (Ideal.ofBits .f32 0x00000000#32) = _
  rw [Ideal.ofBits_zero_f32]

/-- The tile's contribution: the activations' block times the tile's columns of `W_dec`. -/
theorem pay2_eq (xb : Vec Ideal S32x1024 .f32) (web : Vec Ideal S2048x1024 .f32) (beb : Vec Ideal S1x2048 .f32)
    (wdb : Vec Ideal S1024x2048 .f32) :
    k0_pay2 (F := Ideal) xb web beb wdb = Cert.Sae.partBlk (Cert.Sae.codeBlk xb web beb) wdb := by
  funext j
  obtain ⟨p, n, rfl⟩ : ∃ (p : Fin 32) (n : Fin 1024), j = ix2 p n := ⟨j 0, j 1, eq_ix2 j⟩
  unfold k0_pay2 Cert.Sae.partBlk
  rw [pay1_eq, matmul_dec_apply]

/-- At the first point the accumulator starts at the tile's contribution plus the bias row. -/
theorem pay3_eq (xb : Vec Ideal S32x1024 .f32) (web : Vec Ideal S2048x1024 .f32) (beb : Vec Ideal S1x2048 .f32)
    (wdb : Vec Ideal S1024x2048 .f32) (bdb : Vec Ideal S1x1024 .f32) :
    k0_pay3 (F := Ideal) xb web beb wdb bdb
      = fun i => Cert.Sae.partBlk (Cert.Sae.codeBlk xb web beb) wdb i + bdb (ix2 0 (i 1)) := by
  funext j
  obtain ⟨p, n, rfl⟩ : ∃ (p : Fin 32) (n : Fin 1024), j = ix2 p n := ⟨j 0, j 1, eq_ix2 j⟩
  unfold k0_pay3
  rw [addf_apply, pay2_eq, shapeCast_self, broadcastTo_1b_ab_apply]

/-- At a later point the tile's contribution is added to what the accumulator held. -/
theorem pay4_eq (xb : Vec Ideal S32x1024 .f32) (web : Vec Ideal S2048x1024 .f32) (beb : Vec Ideal S1x2048 .f32)
    (wdb : Vec Ideal S1024x2048 .f32) (prev : Vec Ideal S32x1024 .f32) :
    k0_pay4 (F := Ideal) xb web beb wdb prev
      = fun i => prev i + Cert.Sae.partBlk (Cert.Sae.codeBlk xb web beb) wdb i := by
  funext j
  unfold k0_pay4
  rw [addf_apply, pay2_eq, shapeCast_self]

end Cert.Sae.Pay

end
-- ==== Proof.SpecLaws.lean ====
/-
  The tiles add up to the whole: the reconstruction accumulated tile by tile is the reconstruction.
-/
import Mathlib.Data.Fintype.BigOperators
import Mathlib.Logic.Equiv.Fin.Basic
import proofs.«155239_g48773648613903_cont_8to1_c_1082_2_alg».proof.Proof.Spec

noncomputable section

namespace Cert.Sae

open Idealize.ShloMosaic Idealize.ShloMosaic.ValueIdx

/-- A sum over the dictionary axis is the sum over the 16 tiles of the sums over each tile's 2048 entries: the pair
    (tile, entry) ↦ 2048 · tile + entry is a bijection onto the axis, and a finite sum in a commutative monoid does not
    depend on the order of its terms. -/
theorem sum_dict_eq_sum_tiles {M : Type*} [AddCommMonoid M] (f : Fin 32768 → M) :
    ∑ d : Fin 32768, f d = ∑ j : Fin 16, ∑ e : Fin 2048, f (tileIdx j e) := by
  have h := Equiv.sum_comp (finProdFinEquiv : Fin 16 × Fin 2048 ≃ Fin (16 * 2048)) (fun d : Fin 32768 => f d)
  rw [← h, Fintype.sum_prod_type]
  refine Finset.sum_congr rfl fun j _ => Finset.sum_congr rfl fun e _ => ?_
  refine congrArg f (Fin.ext ?_)
  show e.val + 2048 * j.val = 2048 * j.val + e.val
  omega

/-- After tile `n` the accumulated value is the sum of the contributions of tiles 0, …, n, with the bias at the end:
    each step appends one term to the sum and moves the bias past it. -/
theorem accTiles_eq_sum (x : (⟨2, ![32, 1024]⟩ : Shape).Idx → EReal) (We : (⟨2, ![32768, 1024]⟩ : Shape).Idx → EReal)
    (be : (⟨1, ![32768]⟩ : Shape).Idx → EReal) (Wd : (⟨2, ![1024, 32768]⟩ : Shape).Idx → EReal)
    (bd : (⟨1, ![1024]⟩ : Shape).Idx → EReal) (i : (⟨2, ![32, 1024]⟩ : Shape).Idx) :
    ∀ (n : ℕ) (hn : n < 16), accTiles x We be Wd bd n hn i
      = (∑ j : Fin (n + 1), part x We be Wd ⟨j.val, lt_of_lt_of_le j.isLt hn⟩ i) + bd (ix1 (i 1))
  | 0, _ => by
    rw [Fin.sum_univ_one]
    rfl
  | n + 1, hn => by
    rw [Fin.sum_univ_castSucc]
    show accTiles x We be Wd bd n (Nat.lt_of_succ_lt hn) i + part x We be Wd ⟨n + 1, hn⟩ i = _
    rw [accTiles_eq_sum x We be Wd bd i n (Nat.lt_of_succ_lt hn), add_right_comm]
    rfl

/-- After the last tile the accumulated reconstruction is the whole sum over the dictionary axis plus the bias. -/
theorem accTiles_last (x : (⟨2, ![32, 1024]⟩ : Shape).Idx → EReal) (We : (⟨2, ![32768, 1024]⟩ : Shape).Idx → EReal)
    (be : (⟨1, ![32768]⟩ : Shape).Idx → EReal) (Wd : (⟨2, ![1024, 32768]⟩ : Shape).Idx → EReal)
    (bd : (⟨1, ![1024]⟩ : Shape).Idx → EReal) :
    accTiles x We be Wd bd 15 (by decide) = recon x We be Wd bd := by
  funext i
  rw [accTiles_eq_sum x We be Wd bd i 15 (by decide)]
  show _ = (∑ d : Fin 32768, code x We be (ix2 (i 0) d) * Wd (ix2 (i 1) d)) + bd (ix1 (i 1))
  rw [sum_dict_eq_sum_tiles (fun d : Fin 32768 => code x We be (ix2 (i 0) d) * Wd (ix2 (i 1) d))]
  rfl

end Cert.Sae

end
-- ==== Proof.Arrays.lean ====
/-
  What the two result arrays hold after the run, as functions of the argument arrays.

  The x_hat buffer after point n holds the reconstruction accumulated over tiles 0 … n (induction on n); its block
  is the whole array and is written back after the last point, so the x_hat array ends at the reconstruction.  The z
  window writes tile t's activations into columns 2048·t … 2048·t + 2047 at every point, and the sixteen tiles cover
  the array, so the z array ends at the activations.
-/
import proofs.«155239_g48773648613903_cont_8to1_c_1082_2_alg».proof.Proof.Blocks
import proofs.«155239_g48773648613903_cont_8to1_c_1082_2_alg».proof.Proof.Pay
import proofs.«155239_g48773648613903_cont_8to1_c_1082_2_alg».proof.Proof.SpecLaws

set_option maxRecDepth 16384

noncomputable section

namespace Cert.Sae.Arrays

open Cert.KernelIdeal Cert.KernelIdeal.Gen Cert.Sae.KernelIdealBody Cert.Sae.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- After point `n` the x_hat buffer holds the reconstruction accumulated over tiles 0 … n. -/
theorem accAt_eq (c : Dev nD) : ∀ (n : ℕ) (hn : n < cfg0.N),
    accAt (F := Ideal) m c n hn
      = Cert.Sae.accTiles (xA m c) (weA m c) (beA m c) (wdA m c) (bdA m c) n (lt_of_lt_of_eq hn N_0) := by
  intro n
  induction n with
  | zero =>
    intro hn
    show k0_pay3 (xB m c ⟨0, hn⟩) (weB m c ⟨0, hn⟩) (beB m c ⟨0, hn⟩) (wdB m c ⟨0, hn⟩) (bdB m c ⟨0, hn⟩) = _
    rw [Pay.pay3_eq, partBlk_eq]
    funext i
    exact congrArg (fun v => Cert.Sae.part (xA m c) (weA m c) (beA m c) (wdA m c) (tileOf ⟨0, hn⟩) i + v)
      (bdB_apply m c ⟨0, hn⟩ (i 1))
  | succ n ih =>
    intro hn
    show k0_pay4 (xB m c ⟨n + 1, hn⟩) (weB m c ⟨n + 1, hn⟩) (beB m c ⟨n + 1, hn⟩) (wdB m c ⟨n + 1, hn⟩)
      (accAt m c n (Nat.lt_of_succ_lt hn)) = _
    rw [Pay.pay4_eq, partBlk_eq, ih]
    rfl

/-! ## The z array: sixteen column tiles -/

/-- The z window's block at point `t` is row block 0, column block `t`. -/
theorem idx_z : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

/-- What point `t` writes back into the z array is the activations read through the point's block: the tile's
    activations at block coordinate (p, e) are the activations at (p, 2048·t + e), which is where the block's
    coordinate (p, e) lies in the array. -/
theorem flushed_z (c : Dev nD) (t : Fin cfg0.N) :
    (dats (F := Ideal) m 0 c).flushed 6 t
      = ((cfg0.win 6).blk t).view.read (Elt Ideal) (Cert.Sae.code (xA m c) (weA m c) (beA m c)) := by
  show (cfg0.win 6).cut (grid0.coords t) ((dats m 0 c).after 6 t) = _
  rw [after6, Pay.pay1_eq]
  obtain ⟨e0, e1⟩ := idx_z t
  refine funext fun (j : S32x2048.Idx) => ?_
  obtain ⟨p, e, rfl⟩ : ∃ (p : Fin 32) (e : Fin 2048), j = ix2 p e := ⟨j 0, j 1, eq_ix2 j⟩
  show Cert.Sae.codeBlk (xB m c t) (weB m c t) (beB m c t) (ix2 p e)
    = Cert.Sae.code (xA m c) (weA m c) (beA m c) (((cfg0.win 6).blk t).view.emb (ix2 p e))
  rw [codeBlk_apply]
  refine congrArg _ (funext fun a => Fin.ext ?_)
  match a with
  | ⟨0, _⟩ => show p.val = win0_6.index t (0 : Fin 2) * 32 + 1 * p.val; omega
  | ⟨1, _⟩ => show 2048 * t.val + e.val = win0_6.index t (1 : Fin 2) * 2048 + 1 * e.val; omega

/-- An index of the z array is in point `t`'s block iff each coordinate is in the block's range on its axis. -/
theorem mem_blk_z (t : Fin cfg0.N) (i : S32x32768.Idx) :
    i ∈ ((cfg0.win 6).blk t).view.set ↔ ∀ a : Fin 2, win0_6.index t a * S32x2048.size a ≤ (i a).val
      ∧ (i a).val < win0_6.index t a * S32x2048.size a + S32x2048.size a := by
  show i ∈ ((View.whole main_v0_1).slice (win0_6.rect t)).set ↔ _
  rw [View.set_slice_whole, Rect.mem_set_unit]
  exact Iff.rfl

/-- The z array after the run: the activations. -/
theorem final_z (c : Dev nD) :
    (dats (F := Ideal) m 0 c).arrAt 6 cfg0.N = Cert.Sae.code (xA m c) (weA m c) (beA m c) := by
  have hN : cfg0.N = 16 := N_0
  refine (dats m 0 c).arrAt_eq_of_cover 6 (Cert.Sae.code (xA m c) (weA m c) (beA m c)) (fun t _ => flushed_z m c t)
    fun (i : S32x32768.Idx) => ?_
  have hi0 : (i 0).val < 32 := (i 0).isLt
  have hi1 : (i 1).val < 32768 := (i 1).isLt
  -- column d lies in tile d / 2048
  obtain ⟨t, ht⟩ : ∃ t : Fin cfg0.N, t.val = (i 1).val / 2048 := ⟨⟨(i 1).val / 2048, by rw [hN]; omega⟩, rfl⟩
  obtain ⟨e0, e1⟩ := idx_z t
  refine ⟨t, flush0_6 t, ?_⟩
  rw [mem_blk_z]
  intro a
  match a with
  | ⟨0, _⟩ =>
    show win0_6.index t (0 : Fin 2) * 32 ≤ (i 0).val ∧ (i 0).val < win0_6.index t (0 : Fin 2) * 32 + 32
    omega
  | ⟨1, _⟩ =>
    show win0_6.index t (1 : Fin 2) * 2048 ≤ (i 1).val ∧ (i 1).val < win0_6.index t (1 : Fin 2) * 2048 + 2048
    omega

/-! ## The x_hat array: one block, written back after the last point -/

/-- The x_hat window's block is block (0, 0) at every point. -/
theorem idx_xhat : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The one write-back, after the last point, writes the reconstruction: the buffer then holds the accumulation
    over all sixteen tiles, and block (0, 0) of the array read through zero offsets is the array. -/
theorem flushed_xhat (c : Dev nD) (t : Fin cfg0.N) (hf : (cfg0.win 5).flush t = true) :
    (dats (F := Ideal) m 0 c).flushed 5 t
      = ((cfg0.win 5).blk t).view.read (Elt Ideal)
          (Cert.Sae.recon (xA m c) (weA m c) (beA m c) (wdA m c) (bdA m c)) := by
  have hN : cfg0.N = 16 := N_0
  have h15 : t.val = 15 := by have := (flush0_5 t).mp hf; have := t.isLt; omega
  have hacc : accAt (F := Ideal) m c t.val t.isLt
      = Cert.Sae.recon (xA m c) (weA m c) (beA m c) (wdA m c) (bdA m c) := by
    obtain ⟨n, hn⟩ := t
    obtain rfl : n = 15 := h15
    exact (accAt_eq m c 15 hn).trans (Cert.Sae.accTiles_last _ _ _ _ _)
  obtain ⟨e0, e1⟩ := idx_xhat t
  show (cfg0.win 5).cut (grid0.coords t) ((dats m 0 c).after 5 t) = _
  rw [after5, hacc]
  refine funext fun (j : S32x1024.Idx) => ?_
  show Cert.Sae.recon (xA m c) (weA m c) (beA m c) (wdA m c) (bdA m c) j
    = Cert.Sae.recon (xA m c) (weA m c) (beA m c) (wdA m c) (bdA m c) (((cfg0.win 5).blk t).view.emb j)
  refine congrArg _ (funext fun a => Fin.ext ?_)
  match a with
  | ⟨0, _⟩ => show (j 0).val = win0_5.index t (0 : Fin 2) * 32 + 1 * (j 0).val; omega
  | ⟨1, _⟩ => show (j 1).val = win0_5.index t (1 : Fin 2) * 1024 + 1 * (j 1).val; omega

/-- The x_hat array after the run: the reconstruction. -/
theorem final_xhat (c : Dev nD) :
    (dats (F := Ideal) m 0 c).arrAt 5 cfg0.N = Cert.Sae.recon (xA m c) (weA m c) (beA m c) (wdA m c) (bdA m c) := by
  have hN : cfg0.N = 16 := N_0
  refine (dats m 0 c).arrAt_eq_of_cover 5 (Cert.Sae.recon (xA m c) (weA m c) (beA m c) (wdA m c) (bdA m c))
    (fun t hf => flushed_xhat m c t hf) fun (i : S32x1024.Idx) => ?_
  have hi0 : (i 0).val < 32 := (i 0).isLt
  have hi1 : (i 1).val < 1024 := (i 1).isLt
  -- the last point's block is the whole array
  obtain ⟨t, ht⟩ : ∃ t : Fin cfg0.N, t.val = 15 := ⟨⟨15, by rw [hN]; decide⟩, rfl⟩
  obtain ⟨e0, e1⟩ := idx_xhat t
  refine ⟨t, (flush0_5 t).mpr (by omega), ?_⟩
  show i ∈ ((View.whole main_v0_0).slice (win0_5.rect t)).set
  rw [View.set_slice_whole, Rect.mem_set_unit]
  intro a
  match a with
  | ⟨0, _⟩ =>
    show win0_5.index t (0 : Fin 2) * 32 ≤ (i 0).val ∧ (i 0).val < win0_5.index t (0 : Fin 2) * 32 + 32
    omega
  | ⟨1, _⟩ =>
    show win0_5.index t (1 : Fin 2) * 1024 ≤ (i 1).val ∧ (i 1).val < win0_5.index t (1 : Fin 2) * 1024 + 1024
    omega

end Cert.Sae.Arrays

end
-- ==== Proof.Ref.lean ====
/-
  The reference program read index by index: its two results are the functions of the specification.
-/
import proofs.«155239_g48773648613903_cont_8to1_c_1082_2_alg».proof.Proof.Gen.ReferenceIdeal.Read
import proofs.«155239_g48773648613903_cont_8to1_c_1082_2_alg».proof.Proof.Spec

noncomputable section

namespace Cert.Sae.Ref

open Idealize.ShloMosaic Idealize.ShloMosaic.ValueIdx Cert.ReferenceIdeal Cert.ReferenceIdeal.Read

/-- The reference's activations are `code`. -/
theorem ref_code (x0 : (⟨S32x1024, .f32⟩ : BufTy).Contents (Elt Ideal)) (x1 : (⟨S32768x1024, .f32⟩ : BufTy).Contents (Elt Ideal))
    (x2 : (⟨S32768, .f32⟩ : BufTy).Contents (Elt Ideal)) :
    val_main_v5 (F := Ideal) x0 x1 x2 = Cert.Sae.code x0 x1 x2 := by
  funext i
  -- the left factor of the product is read at (token, k)
  have el : ∀ k : Fin 1024, lidx_main_v1 i k = ix2 (i 0) k := fun k => funext fun a => Fin.ext (by
    match a with
    | ⟨0, _⟩ => rfl
    | ⟨1, _⟩ => rfl)
  -- the right factor is the transposed encoder matrix at (k, entry), that is the matrix at (entry, k)
  have er : ∀ k : Fin 1024, idx_main_v0 (ridx_main_v1 i k) = ix2 (i 1) k := fun k => funext fun a => Fin.ext (by
    match a with
    | ⟨0, _⟩ => rfl
    | ⟨1, _⟩ => rfl)
  -- the bias, broadcast along the tokens, is read at the entry
  have eb : idx_main_v2 (idx_main_v3 i) = ix1 (i 1) := funext fun a => Fin.ext (by
    match a with
    | ⟨0, _⟩ => rfl)
  rw [val_main_v5_apply, val_main_v4_apply, val_main_v1_apply, val_main_v3_apply, val_main_v2_apply,
    val_main_call0_v0_apply, val_main_call0_cst_apply]
  simp only [val_main_v0_apply, el, er, eb, Ideal.addf_def, Ideal.maximumf_def, Ideal.ofBits_def, Ideal.ofBits_zero_f32]
  rfl

/-- The reference's reconstruction is `recon`. -/
theorem ref_recon (x0 : (⟨S32x1024, .f32⟩ : BufTy).Contents (Elt Ideal)) (x1 : (⟨S32768x1024, .f32⟩ : BufTy).Contents (Elt Ideal))
    (x2 : (⟨S32768, .f32⟩ : BufTy).Contents (Elt Ideal)) (x3 : (⟨S1024x32768, .f32⟩ : BufTy).Contents (Elt Ideal))
    (x4 : (⟨S1024, .f32⟩ : BufTy).Contents (Elt Ideal)) :
    val_main_v10 (F := Ideal) x0 x1 x2 x3 x4 = Cert.Sae.recon x0 x1 x2 x3 x4 := by
  funext i
  -- the activations are read at (token, entry)
  have el : ∀ d : Fin 32768, lidx_main_v7 i d = ix2 (i 0) d := fun d => funext fun a => Fin.ext (by
    match a with
    | ⟨0, _⟩ => rfl
    | ⟨1, _⟩ => rfl)
  -- the transposed decoder matrix at (entry, n) is the matrix at (n, entry)
  have er : ∀ d : Fin 32768, idx_main_v6 (ridx_main_v7 i d) = ix2 (i 1) d := fun d => funext fun a => Fin.ext (by
    match a with
    | ⟨0, _⟩ => rfl
    | ⟨1, _⟩ => rfl)
  -- the bias, broadcast along the tokens, is read at the output feature
  have eb : idx_main_v8 (idx_main_v9 i) = ix1 (i 1) := funext fun a => Fin.ext (by
    match a with
    | ⟨0, _⟩ => rfl)
  rw [val_main_v10_apply, val_main_v7_apply, val_main_v9_apply, val_main_v8_apply, ref_code]
  simp only [val_main_v6_apply, el, er, eb, Ideal.addf_def]
  rfl

end Cert.Sae.Ref

end
-- ==== Proof.lean ====
/-
  A fused sparse-autoencoder forward pass against its reference, over the extended reals.

  Both programs compute, for tokens t, features n and dictionary entries d,
    z[t, d]     = max (Σ_k x[t, k] · W_enc[d, k] + b_enc[d]) 0
    x_hat[t, n] = Σ_d z[t, d] · W_dec[n, d] + b_dec[n].
  The reference does so with two whole matrix products.  The kernel walks the dictionary axis in 16 tiles of 2048
  entries: at each grid point it forms the tile's activations, writes them out, and adds the tile's contribution
  Σ_{d in tile} z[t, d] · W_dec[n, d] into a resident x_hat block that starts, at the first point, at the first
  tile's contribution plus b_dec.  The two reconstructions differ only in how one finite sum is grouped and in where
  the bias is added; addition on the extended reals is commutative and associative, so they are equal for every
  input, finite or not (the precondition is never opened).  Nothing was rewritten when the kernel was idealized,
  so that conjunct is empty.

  The frames: each kernel program's run is the pipeline's run over the body's triple at a generic grid point (two
  cases: the first point, every later point), for any reading of the floats; the reference's is its run as a
  sequence of host operations.
-/
import proofs.«155239_g48773648613903_cont_8to1_c_1082_2_alg».proof.Defs
import proofs.«155239_g48773648613903_cont_8to1_c_1082_2_alg».proof.Proof.Gen.Kernel
import proofs.«155239_g48773648613903_cont_8to1_c_1082_2_alg».proof.Proof.Gen.KernelIdeal
import proofs.«155239_g48773648613903_cont_8to1_c_1082_2_alg».proof.Proof.Gen.ReferenceIdeal
import proofs.«155239_g48773648613903_cont_8to1_c_1082_2_alg».proof.Proof.Gen.Pre_finite_inputs
import proofs.«155239_g48773648613903_cont_8to1_c_1082_2_alg».proof.Proof.Gen.ReferenceIdeal.Run
import proofs.«155239_g48773648613903_cont_8to1_c_1082_2_alg».proof.Proof.KernelBody
import proofs.«155239_g48773648613903_cont_8to1_c_1082_2_alg».proof.Proof.KernelIdealBody
import proofs.«155239_g48773648613903_cont_8to1_c_1082_2_alg».proof.Proof.Arrays
import proofs.«155239_g48773648613903_cont_8to1_c_1082_2_alg».proof.Proof.Ref
import Idealize.ShloMosaic.Adequacy
import Idealize.ShloMosaic.Init

noncomputable section

namespace Cert.Proof

open Idealize.ShloMosaic Idealize.ShloMosaic.TcCoe Idealize.SL.Sem

/-! ## The kernel's two results as functions of its arguments -/

section KernelValue

open Cert.KernelIdeal Cert.KernelIdeal.Gen Cert.Sae.KernelIdealBody Cert.Sae.Blocks Cert.Sae.Arrays

/-- The idealized kernel runs, leaves the reconstruction in its first result and the activations in its second,
    and its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = Cert.Sae.recon (xA m c) (weA m c) (beA m c) (wdA m c) (bdA m c)
      ∧ r.2.mem ((c.tc : Thread nD τ).loc main_v0_1) = Cert.Sae.code (xA m c) (weA m c) (beA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final_xhat m c), ((h c).1 6).trans (final_z m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main (F := Ideal) m ρ)

end KernelValue

/-! ## The claims -/

theorem frame_k : Cert.frame_Kernel := fun m ρ _ => Cert.Sae.KernelBody.frame (F := Bits) m ρ

theorem frame_ki : Cert.frame_KernelIdeal := fun m ρ _ => Cert.Sae.KernelIdealBody.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the reconstruction and the activations of the same arguments. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v10_eq, Cert.Sae.Ref.ref_recon, (hagree c).1, (hagree c).2.1, (hagree c).2.2.1,
      (hagree c).2.2.2.1, (hagree c).2.2.2.2]
  · rw [Cert.ReferenceIdeal.Read.val_main_v5_eq, Cert.Sae.Ref.ref_code, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
